-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 4294867296#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S100352x128 : Shape := ⟨2, ![100352, 128]⟩
abbrev S1x128 : Shape := ⟨2, ![1, 128]⟩
abbrev S2048x128 : Shape := ⟨2, ![2048, 128]⟩

abbrev nBuf : Space → Nat
  | .hbm => 105
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1, .i32⟩
  | .hbm, ⟨34, _⟩ => ⟨S_, .i32⟩
  | .hbm, ⟨35, _⟩ => ⟨S1600000x1, .i32⟩
  | .hbm, ⟨36, _⟩ => ⟨S1600000x1, .i1⟩
  | .hbm, ⟨37, _⟩ => ⟨S1x1, .i32⟩
  | .hbm, ⟨38, _⟩ => ⟨S1600000x1, .i32⟩
  | .hbm, ⟨39, _⟩ => ⟨S1600000x1, .i1⟩
  | .hbm, ⟨40, _⟩ => ⟨S1600000x1, .i1⟩
  | .hbm, ⟨41, _⟩ => ⟨S_, .i1⟩
  | .hbm, ⟨42, _⟩ => ⟨S1600000, .i1⟩
  | .hbm, ⟨43, _⟩ => ⟨S1600000x128, .f32⟩
  | .hbm, ⟨44, _⟩ => ⟨S1600000x128, .i1⟩
  | .hbm, ⟨45, _⟩ => ⟨S_, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S_, .f32⟩
  | .hbm, ⟨56, _⟩ => ⟨S100352x128, .f32⟩
  | .hbm, ⟨57, _⟩ => ⟨S_, .i32⟩
  | .hbm, ⟨58, _⟩ => ⟨S_, .f32⟩
  | .hbm, ⟨59, _⟩ => ⟨S100352x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S100352x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1, .i32⟩
  | .hbm, ⟨74, _⟩ => ⟨S_, .i32⟩
  | .hbm, ⟨75, _⟩ => ⟨S1600000x1, .i32⟩
  | .hbm, ⟨76, _⟩ => ⟨S1600000x1, .i1⟩
  | .hbm, ⟨77, _⟩ => ⟨S1x1, .i32⟩
  | .hbm, ⟨78, _⟩ => ⟨S1600000x1, .i32⟩
  | .hbm, ⟨79, _⟩ => ⟨S1600000x1, .i1⟩
  | .hbm, ⟨80, _⟩ => ⟨S1600000x1, .i1⟩
  | .hbm, ⟨81, _⟩ => ⟨S_, .i1⟩
  | .hbm, ⟨82, _⟩ => ⟨S1600000, .i1⟩
  | .hbm, ⟨83, _⟩ => ⟨S1600000x128, .f32⟩
  | .hbm, ⟨84, _⟩ => ⟨S1600000x128, .i1⟩
  | .hbm, ⟨85, _⟩ => ⟨S_, .f32⟩
  | .hbm, ⟨86, _⟩ => ⟨S1600000x128, .f32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S_, .i32⟩
  | .hbm, ⟨95, _⟩ => ⟨S_, .f32⟩
  | .hbm, ⟨96, _⟩ => ⟨S100352x128, .f32⟩
  | .hbm, ⟨97, _⟩ => ⟨S_, .i32⟩
  | .hbm, ⟨98, _⟩ => ⟨S_, .f32⟩
  | .hbm, ⟨99, _⟩ => ⟨S100352x128, .f32⟩
  | .hbm, ⟨100, _⟩ => ⟨S128x128, .f32⟩
  | .hbm, ⟨101, _⟩ => ⟨S128x128, .f32⟩
  | .hbm, ⟨102, _⟩ => ⟨S1x128, .f32⟩
  | .hbm, ⟨103, _⟩ => ⟨S100352x128, .f32⟩
  | .hbm, ⟨104, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2048x128, .f32⟩
  | .local _ .vmem, ⟨17, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v13 : Ref sig .tc := ⟨.hbm, 47, rfl⟩
abbrev main_cst_3 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c : Ref sig .tc := ⟨.hbm, 54, rfl⟩
abbrev main_call1_v0 : Ref sig .tc := ⟨.hbm, 55, rfl⟩
abbrev main_v19 : Ref sig .tc := ⟨.hbm, 56, rfl⟩
abbrev main_c_4 : Ref sig .tc := ⟨.hbm, 57, rfl⟩
abbrev main_call2_v0 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_call3_cst : Ref sig .tc := ⟨.hbm, 85, rfl⟩
abbrev main_call3_v15 : Ref sig .tc := ⟨.hbm, 86, rfl⟩
abbrev main_v26 : Ref sig .tc := ⟨.hbm, 87, rfl⟩
abbrev main_cst_5 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_c_6 : Ref sig .tc := ⟨.hbm, 94, rfl⟩
abbrev main_call4_v0 : Ref sig .tc := ⟨.hbm, 95, rfl⟩
abbrev main_v32 : Ref sig .tc := ⟨.hbm, 96, rfl⟩
abbrev main_c_7 : Ref sig .tc := ⟨.hbm, 97, rfl⟩
abbrev main_call5_v0 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  pads_S100000x128_S100352x128_03520_000 : S100000x128.Pads (![0, 0] : Fin 2 → Nat) ![352, 0] ![0, 0] S100352x128
  transposes_S128x128_S128x128_1_0 : S128x128.Transposes [1, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S100352x128_S100000x128_0_0 : S100352x128.Slices ![0, 0] S100000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S100352x128.size a
  hwx0_1 : ∀ i : grid0.Coords, EltTy.bits .f32 = 32 ∨ (Rect.block (s := S100352x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S100352x128.size a
  hwx0_5 : ∀ i : grid0.Coords, EltTy.bits .f32 = 32 ∨ (Rect.block (s := S100352x128) S2048x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .f32 = 32 ∨ (Rect.block (s := S100352x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S100352x128.size a
  hwx1_1 : ∀ i : grid1.Coords, EltTy.bits .f32 = 32 ∨ (Rect.block (s := S100352x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S100352x128.size a
  hwx1_5 : ∀ i : grid1.Coords, EltTy.bits .f32 = 32 ∨ (Rect.block (s := S100352x128) S2048x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v19) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  Two rounds of mean aggregation over a graph, each followed by a row-wise affine combine.

  For node features `feat` (100000 rows of 128), source and destination node of each of 1600000 edges, and
  weights `Wl`, `bl`, `Wr`, one round computes, for node `r` and output column `j`,

      (∑ₖ mean r k · Wl j k  +  ∑ₖ feat r k · Wr j k)  +  bl j,

  where `mean r` is the sum of `feat (src e)` over the edges `e` with `dst e = r`, times the reciprocal of
  `max (number of such edges) 1`. The first round clamps its result below at zero; the second does not.
  The whole-array steps are stated with the operations the program itself uses, at any reading of the floats, so that
  the program's own terms are instances of these definitions; the combine's entries are stated on the extended reals.
-/
import proofs.«402807_j14465449853443_1_alg».proof.KernelIdeal
import proofs.«402807_j14465449853443_1_alg».proof.Proof.Gen.KernelIdeal
import Idealize.ShloMosaic.PureOps.Ideal
import Idealize.ShloMosaic.Lib.ValueIdx

noncomputable section

namespace Cert.Sage

open Idealize.ShloMosaic Idealize.ShloMosaic.ValueIdx Cert.KernelIdeal
open Cert.KernelIdeal.Facts₀ Cert.KernelIdeal.Facts

/-! ## The edge list -/

/-- Row 0 of the edge list: the source node of each edge. -/
def srcIdx (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of each edge. -/
def dstIdx (ei : IVec S2x1600000 32) : IVec S1600000 32 :=
  shapeCast S1600000 (extractStridedSlice S1x1600000 ![1, 0] ei slices_S2x1600000_S1x1600000_1_0) shapeCasts_S1x1600000_S1600000

/-- A vector of node numbers as a one-column index table. -/
def asColumn (v : IVec S1600000 32) : IVec S1600000x1 32 :=
  broadcastInDim S1600000x1 ![0] bcast_S1600000_S1600000x1_0 v

/-- A source node is admissible when it lies in `[-100000, 100000)`: a negative number counts from the end. -/
def SrcOk (v : BitVec 32) : Prop := -100000 ≤ v.toInt ∧ v.toInt < 100000

/-- Negative node numbers count from the end: `v` becomes `v + 100000` when `v < 0`. -/
def wrapNeg (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-! ## Gathering rows and summing them per destination -/

/-- The rows `feat (src e)`, one per edge (row numbers outside the table are clamped into it). -/
def rowsOf {F : FTy → Type} [FloatOps F] (feat : FVec F S100000x128 .f32) (src : IVec S1600000 32) : FVec F S1600000x128 .f32 :=
  Host.gather gather_S100000x128_S1600000x1_S1600000x128_1_0_n_n_0_1_1128 feat (asColumn (wrapNeg src))

/-- Per edge: is the (wrapped) source node inside `[0, 99999]`? -/
def inTable (src : IVec S1600000 32) : IVec S1600000 1 :=
  Host.reduce IntOp.andi
    (andi (cmpi .sge (asColumn (wrapNeg src)) (broadcastInDim S1600000x1 ![] bcast_S_S1600000x1 (constantI S_ 32 0#32)))
      (cmpi .sle (asColumn (wrapNeg src))
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows `feat (src e)` with a fill value on the edges whose source node is outside the table. -/
def rowsOrFill {F : FTy → Type} [FloatOps F] (feat : FVec F S100000x128 .f32) (src : IVec S1600000 32) : FVec F S1600000x128 .f32 :=
  select (broadcastInDim S1600000x128 ![0] bcast_S1600000_S1600000x128_0 (inTable src)) (rowsOf feat src)
    (broadcastInDim S1600000x128 ![] bcast_S_S1600000x128 (constant S_ .f32 0x7FC00000#32))

/-- The per-destination sum of the edges' rows. -/
def sumAt {F : FTy → Type} [FloatOps F] (dst : IVec S1600000 32) (msg : FVec F S1600000x128 .f32) : FVec F S100000x128 .f32 :=
  Host.scatterAdd scatter_S100000x128_S1600000x1_S1600000x128_1_0_0_1
    (broadcastInDim S100000x128 ![] bcast_S_S100000x128 (constant S_ .f32 0x00000000#32)) (asColumn dst) msg

/-- The number of edges into each node, at least one. -/
def degree {F : FTy → Type} [FloatOps F] (dst : IVec S1600000 32) : FVec F S100000 .f32 :=
  maximumf
    (Host.scatterAdd scatter_S100000_S1600000x1_S1600000_n_0_0_1
      (broadcastInDim S100000 ![] bcast_S_S100000 (constant S_ .f32 0x00000000#32)) (asColumn dst)
      (broadcastInDim S1600000 ![] bcast_S_S1600000 (constant S_ .f32 0x3F800000#32)))
    (broadcastInDim S100000 ![] bcast_S_S100000 (constant S_ .f32 0x3F800000#32))

/-- The reciprocal of `degree`, as a column. -/
def invDegree {F : FTy → Type} [FloatOps F] (dst : IVec S1600000 32) : FVec F S100000x1 .f32 :=
  broadcastInDim S100000x1 ![0] bcast_S100000_S100000x1_0
    (Host.divf (broadcastInDim S100000 ![] bcast_S_S100000 (constant S_ .f32 0x3F800000#32)) (degree dst))

/-- The mean of the incoming rows: their sum times the reciprocal degree. -/
def meanIn {F : FTy → Type} [FloatOps F] (msg : FVec F S1600000x128 .f32) (dst : IVec S1600000 32) : FVec F S100000x128 .f32 :=
  mulf (sumAt dst msg) (broadcastInDim S100000x128 ![0, 1] bcast_S100000x1_S100000x128_0_1 (invDegree dst))

/-! ## The row-wise combine -/

/-- Entry `(r, j)` of `a · wl + x · wr + b`, the two products summed first. -/
def combineAt (a x : FVec Ideal S100352x128 .f32) (wl : FVec Ideal S128x128 .f32) (b : FVec Ideal S1x128 .f32)
    (wr : FVec Ideal S128x128 .f32) (r : Fin 100352) (j : Fin 128) : EReal :=
  (∑ k : Fin 128, a (ix2 r k) * wl (ix2 k j) + ∑ k : Fin 128, x (ix2 r k) * wr (ix2 k j)) + b (ix2 (0 : Fin 1) j)

/-- The combine over all padded rows, clamped below at zero when `clamp` is set. -/
def combine (clamp : Bool) (a x : FVec Ideal S100352x128 .f32) (wl : FVec Ideal S128x128 .f32) (b : FVec Ideal S1x128 .f32)
    (wr : FVec Ideal S128x128 .f32) : FVec Ideal S100352x128 .f32 := fun i =>
  if clamp then max (combineAt a x wl b wr (i 0) (i 1)) (Ideal.ofBits .f32 0x00000000#32)
  else combineAt a x wl b wr (i 0) (i 1)

/-- 352 rows appended below the 100000 (their contents never reach a kept row). -/
def padRows {F : FTy → Type} [FloatOps F] (a : FVec F S100000x128 .f32) : FVec F S100352x128 .f32 :=
  pad S100352x128 ![0, 0] ![352, 0] ![0, 0] a (sitofp .f32 (constantI S_ 32 0#32)) pads_S100000x128_S100352x128_03520_000 h_S_

/-- The first 100000 rows. -/
def topRows {F : FTy → Type} [FloatOps F] (o : FVec F S100352x128 .f32) : FVec F S100000x128 .f32 :=
  extractStridedSlice S100000x128 ![0, 0] o slices_S100352x128_S100000x128_0_0

/-- A weight matrix transposed. -/
def tr {F : FTy → Type} [FloatOps F] (W : FVec F S128x128 .f32) : FVec F S128x128 .f32 :=
  transpose S128x128 [1, 0] W transposes_S128x128_S128x128_1_0

/-- A bias vector as a one-row matrix. -/
def asRow {F : FTy → Type} [FloatOps F] (b : FVec F S128 .f32) : FVec F S1x128 .f32 := shapeCast S1x128 b shapeCasts_S128_S1x128

/-- One round as the tiled program computes it: gather with fill, mean, pad, combine, drop the padding. -/
def roundTiled (clamp : Bool) (feat : FVec Ideal S100000x128 .f32) (src dst : IVec S1600000 32)
    (Wl : FVec Ideal S128x128 .f32) (bl : FVec Ideal S128 .f32) (Wr : FVec Ideal S128x128 .f32) : FVec Ideal S100000x128 .f32 :=
  topRows (combine clamp (padRows (meanIn (rowsOrFill feat src) dst)) (padRows feat) (tr Wl) (asRow bl) (tr Wr))

/-- Both rounds. -/
def twoRounds (x : FVec Ideal S100000x128 .f32) (ei : IVec S2x1600000 32)
    (W1l : FVec Ideal S128x128 .f32) (b1l : FVec Ideal S128 .f32) (W1r : FVec Ideal S128x128 .f32)
    (W2l : FVec Ideal S128x128 .f32) (b2l : FVec Ideal S128 .f32) (W2r : FVec Ideal S128x128 .f32) : FVec Ideal S100000x128 .f32 :=
  roundTiled false (roundTiled true x (srcIdx ei) (dstIdx ei) W1l b1l W1r) (srcIdx ei) (dstIdx ei) W2l b2l W2r

end Cert.Sage

end
-- ==== Proof.RegionValue.lean ====
import proofs.«402807_j14465449853443_1_alg».proof.Proof.Spec
import proofs.«402807_j14465449853443_1_alg».proof.Proof.Gen.KernelIdeal.Frame
import Idealize.ShloMosaic.Lib.Pipeline.Value
import Idealize.ShloMosaic.PureOps.Ideal.Laws

noncomputable section

namespace Cert.Sage

open Idealize.ShloMosaic Idealize.ShloMosaic.TcCoe Idealize.SL.Sem Idealize.ShloMosaic.ValueIdx
open Idealize.ShloMosaic.Pipeline (Dat)
open Cert.KernelIdeal Cert.KernelIdeal.Gen

/-!
  What each round's output array holds after its 49 grid points.

  A round's kernel works on blocks of 2048 node rows. At a point `t` it reads rows `2048 t … 2048 t + 2047` of the
  mean and of the features, the two whole weight matrices and the bias row, and leaves in the output block, at entry
  `(p, q)`,

      (∑ₖ mean (2048 t + p, k) · wl (k, q)  +  ∑ₖ feat (2048 t + p, k) · wr (k, q))  +  bias (0, q),

  clamped below at zero in round one. On the extended reals the narrowing of the factors before each product is the
  identity and each block product into a zero block is the plain sum, so this is the spec's `combineAt` at row
  `2048 t + p`. The 49 blocks tile the 100352 rows, so the output array ends as the spec's `combine` of the five
  arrays the round found.
-/

/-! ## One block product at an entry

The block product contracts the second axis of its left factor with the first axis of its right factor. The four
facts below say, axis by axis, which entries of the factors the term of the sum at contraction position `q` reads
for output entry `i`. -/

theorem lhs_blockDot_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_blockDot_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_blockDot_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_blockDot_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A block product into the zero block, at entry `(p, q)`: the sum over `k` of `a (p, k) * b (k, q)`. -/
theorem blockDot_apply {φ₁ φ₂ : FTy} (a : FVec Ideal S2048x128 φ₁) (b : FVec Ideal S128x128 φ₂) (p : Fin 2048) (q : Fin 128) :
    matmul (F := Ideal) dot_S2048x128_S128x128_S2048x128_1_0_0_1_n_n none a b (constant (F := Ideal) S2048x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p q) ((ValueIdx.contrEquiv1 dot_S2048x128_S128x128_S2048x128_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S2048x128_S128x128_S2048x128_1_0_0_1_n_n.rhsIdx (ix2 p q) ((ValueIdx.contrEquiv1 dot_S2048x128_S128x128_S2048x128_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]

/-- The bias row spread over the 2048 rows of a block, at entry `(p, q)`: the row's entry `q`. -/
theorem biasRows_apply (x : FVec Ideal S1x128 .f32) (p : Fin 2048) (q : Fin 128) :
    broadcastTo S2048x128 x broadcasts_S1x128_S2048x128 (ix2 p q) = x (ix2 (0 : Fin 1) q) :=
  broadcastTo_apply x broadcasts_S1x128_S2048x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-! ## What one block of the output holds -/

/-- Round one's block, entry `(p, q)`: both products summed, the bias added, the result clamped below at zero. -/
theorem k0_pay1_apply (x0 x1 : Vec Ideal S2048x128 .f32) (x2 x4 : Vec Ideal S128x128 .f32) (x3 : Vec Ideal S1x128 .f32)
    (p : Fin 2048) (q : Fin 128) :
    k0_pay1 (F := Ideal) x0 x1 x2 x4 x3 (ix2 p q)
      = max ((∑ k : Fin 128, x0 (ix2 p k) * x2 (ix2 k q) + ∑ k : Fin 128, x1 (ix2 p k) * x4 (ix2 k q)) + x3 (ix2 (0 : Fin 1) q))
          (Ideal.ofBits .f32 0x00000000#32) := by
  unfold k0_pay1
  simp only [shapeCast_self]
  rw [maximumf_apply, addf_apply, addf_apply, blockDot_apply, blockDot_apply, biasRows_apply, broadcast_apply]
  rfl

/-- Round two's block, entry `(p, q)`: the same without the clamp. -/
theorem k1_pay1_apply (x0 x1 : Vec Ideal S2048x128 .f32) (x2 x4 : Vec Ideal S128x128 .f32) (x3 : Vec Ideal S1x128 .f32)
    (p : Fin 2048) (q : Fin 128) :
    k1_pay1 (F := Ideal) x0 x1 x2 x4 x3 (ix2 p q)
      = (∑ k : Fin 128, x0 (ix2 p k) * x2 (ix2 k q) + ∑ k : Fin 128, x1 (ix2 p k) * x4 (ix2 k q)) + x3 (ix2 (0 : Fin 1) q) := by
  unfold k1_pay1
  simp only [shapeCast_self]
  rw [addf_apply, addf_apply, blockDot_apply, blockDot_apply, biasRows_apply]
  rfl

/-! ## The spec's combine at an entry -/

theorem combine_true_apply (a x : FVec Ideal S100352x128 .f32) (wl : FVec Ideal S128x128 .f32) (b : FVec Ideal S1x128 .f32)
    (wr : FVec Ideal S128x128 .f32) (r : Fin 100352) (j : Fin 128) :
    combine true a x wl b wr (ix2 r j) = max (combineAt a x wl b wr r j) (Ideal.ofBits .f32 0x00000000#32) := rfl

theorem combine_false_apply (a x : FVec Ideal S100352x128 .f32) (wl : FVec Ideal S128x128 .f32) (b : FVec Ideal S1x128 .f32)
    (wr : FVec Ideal S128x128 .f32) (r : Fin 100352) (j : Fin 128) :
    combine false a x wl b wr (ix2 r j) = combineAt a x wl b wr r j := rfl

/-- The zero offsets of a whole-block rectangle, as a constant function. -/
theorem zeroOffsets : (![0, 0] : Fin 2 → Nat) = fun _ => 0 := funext fun a => by fin_cases a <;> rfl

/-! ## Round one: from the 49 blocks to the array -/

/-- The grid of round one has 49 points. -/
theorem points0 : cfg0.N = 49 := by decide

/-- Row `p` of block `t` is row `2048 t + p` of the padded array. -/
def row0 (t : Fin cfg0.N) (p : Fin 2048) : Fin 100352 :=
  ⟨t.val * 2048 + p.val, by have ht : t.val < 49 := t.isLt.trans_eq points0; have := p.isLt; omega⟩

/-- The printed block-index maps, decided over the 49 points: the two row-blocked inputs move with the output, whose
    block index is the point itself; the weights and the bias stay at block `(0, 0)`. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block `t` of the mean, entry `(p, k)`: the array's entry `(2048 t + p, k)`. -/
theorem mean_block0 (V : (c : Dev nD) → (b : Ref sig .tc) → Buf (Elt Ideal) ((c : Thread nD τ).loc b)) (c : Dev nD)
    (t : Fin cfg0.N) (p : Fin 2048) (k : Fin 128) :
    iblk0 (F := Ideal) V c 0 t (ix2 p k) = V c main_v19 (ix2 (row0 t p) k) := by
  obtain ⟨e0, e1, -⟩ := blockIndex0 t
  show V c main_v19 (((cfg0.win 0).blk t).view.emb (ix2 p k)) = V c main_v19 (ix2 (row0 t p) k)
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * k.val = k.val; omega

/-- Block `t` of the features, entry `(p, k)`: the array's entry `(2048 t + p, k)`. -/
theorem feat_block0 (V : (c : Dev nD) → (b : Ref sig .tc) → Buf (Elt Ideal) ((c : Thread nD τ).loc b)) (c : Dev nD)
    (t : Fin cfg0.N) (p : Fin 2048) (k : Fin 128) :
    iblk0 (F := Ideal) V c 1 t (ix2 p k) = V c main_v20 (ix2 (row0 t p) k) := by
  obtain ⟨-, -, e0, e1, -⟩ := blockIndex0 t
  show V c main_v20 (((cfg0.win 1).blk t).view.emb (ix2 p k)) = V c main_v20 (ix2 (row0 t p) k)
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * k.val = k.val; omega

/-- The left weights are one block: at every point its entry `(k, q)` is the array's. -/
theorem wl_block0 (V : (c : Dev nD) → (b : Ref sig .tc) → Buf (Elt Ideal) ((c : Thread nD τ).loc b)) (c : Dev nD)
    (t : Fin cfg0.N) (k q : Fin 128) :
    iblk0 (F := Ideal) V c 2 t (ix2 k q) = V c main_v21 (ix2 k q) := by
  obtain ⟨-, -, -, -, e0, e1, -⟩ := blockIndex0 t
  show V c main_v21 (((cfg0.win 2).blk t).view.emb (ix2 k q)) = V c main_v21 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias row is one block: at every point its entry `(0, q)` is the array's. -/
theorem bias_block0 (V : (c : Dev nD) → (b : Ref sig .tc) → Buf (Elt Ideal) ((c : Thread nD τ).loc b)) (c : Dev nD)
    (t : Fin cfg0.N) (q : Fin 128) :
    iblk0 (F := Ideal) V c 3 t (ix2 (0 : Fin 1) q) = V c main_v23 (ix2 (0 : Fin 1) q) := by
  obtain ⟨-, -, -, -, -, -, e0, e1, -⟩ := blockIndex0 t
  show V c main_v23 (((cfg0.win 3).blk t).view.emb (ix2 (0 : Fin 1) q)) = V c main_v23 (ix2 (0 : Fin 1) q)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The right weights are one block: at every point its entry `(k, q)` is the array's. -/
theorem wr_block0 (V : (c : Dev nD) → (b : Ref sig .tc) → Buf (Elt Ideal) ((c : Thread nD τ).loc b)) (c : Dev nD)
    (t : Fin cfg0.N) (k q : Fin 128) :
    iblk0 (F := Ideal) V c 4 t (ix2 k q) = V c main_v22 (ix2 k q) := by
  obtain ⟨-, -, -, -, -, -, -, -, e0, e1, -⟩ := blockIndex0 t
  show V c main_v22 (((cfg0.win 4).blk t).view.emb (ix2 k q)) = V c main_v22 (ix2 k q)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Entry `(p, q)` of the output's block `t` sits at `(2048 t + p, q)` of the output array. -/
theorem out_entry0 (t : Fin cfg0.N) (p : Fin 2048) (q : Fin 128) :
    ((cfg0.win 5).blk t).view.emb (ix2 p q) = ix2 (row0 t p) q := by
  obtain ⟨-, -, -, -, -, -, -, -, -, -, e0, e1⟩ := blockIndex0 t
  refine funext fun a => Fin.ext ?_
  match a with
  | ⟨0, _⟩ => show win0_5.index t (0 : Fin 2) * 2048 + 1 * p.val = t.val * 2048 + p.val; omega
  | ⟨1, _⟩ => show win0_5.index t (1 : Fin 2) * 128 + 1 * q.val = q.val; omega

/-- WHAT POINT `t` WRITES BACK is block `t` of the clamped combine of the five arrays as the round finds them. -/
theorem flushed0_eq (V : (c : Dev nD) → (b : Ref sig .tc) → Buf (Elt Ideal) ((c : Thread nD τ).loc b)) (c : Dev nD)
    (t : Fin cfg0.N) :
    (dat0 (F := Ideal) V c).flushed 5 t
      = ((cfg0.win 5).blk t).view.read (Elt Ideal)
          (combine true (V c main_v19) (V c main_v20) (V c main_v21) (V c main_v23) (V c main_v22)) := by
  show (cfg0.win 5).cut (grid0.coords t) ((dat0 (F := Ideal) V c).after 5 t) = _
  rw [after0_5]
  unfold out0_5
  rw [View.canon_unit_zero zeroOffsets]
  simp only [View.ld_unit_zero (S := S2048x128) zeroOffsets, View.ld_unit_zero (S := S128x128) zeroOffsets,
    View.ld_unit_zero (S := S1x128) zeroOffsets]
  funext j
  obtain ⟨p, q, rfl⟩ : ∃ (p : Fin 2048) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = combine true (V c main_v19) (V c main_v20) (V c main_v21) (V c main_v23) (V c main_v22)
        (((cfg0.win 5).blk t).view.emb (ix2 p q))
  rw [k0_pay1_apply, out_entry0, combine_true_apply]
  simp only [mean_block0, feat_block0, wl_block0, bias_block0, wr_block0]
  rfl

/-- An index of the output array is in point `t`'s block iff each coordinate is in the block's range on its axis. -/
theorem mem_outBlock0 (t : Fin cfg0.N) (i : S100352x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v24).slice (win0_5.rect t)).set ↔ _
  rw [View.set_slice_whole, Rect.mem_set_unit]
  exact Iff.rfl

/-- Every entry `(r, j)` of the output array is in the block of point `r / 2048`. -/
theorem outBlocks_cover0 (i : S100352x128.Idx) :
    ∃ t : Fin cfg0.N, (cfg0.win 5).flush t = true ∧ i ∈ ((cfg0.win 5).blk t).view.set := by
  have hi0 : (i 0).val < 100352 := (i 0).isLt
  have hi1 : (i 1).val < 128 := (i 1).isLt
  obtain ⟨t, ht⟩ : ∃ t : Fin cfg0.N, t.val = (i 0).val / 2048 := ⟨⟨(i 0).val / 2048, by rw [points0]; omega⟩, rfl⟩
  obtain ⟨-, -, -, -, -, -, -, -, -, -, e0, e1⟩ := blockIndex0 t
  refine ⟨t, flush0_5 t, ?_⟩
  rw [mem_outBlock0]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 128 ≤ (i 1).val ∧ (i 1).val < win0_5.index t (1 : Fin 2) * 128 + 128; omega

/-- THE OUTPUT ARRAY after round one's 49 points: the clamped combine of the five arrays as the round found them. -/
theorem region0_final (V : (c : Dev nD) → (b : Ref sig .tc) → Buf (Elt Ideal) ((c : Thread nD τ).loc b)) (c : Dev nD) :
    (dat0 (F := Ideal) V c).arrAt 5 cfg0.N
      = combine true (V c main_v19) (V c main_v20) (V c main_v21) (V c main_v23) (V c main_v22) :=
  (dat0 (F := Ideal) V c).arrAt_eq_of_cover 5 _ (fun t _ => flushed0_eq V c t) outBlocks_cover0

/-! ## Round two: from the 49 blocks to the array -/

/-- The grid of round two has 49 points. -/
theorem points1 : cfg1.N = 49 := by decide

/-- Row `p` of block `t` is row `2048 t + p` of the padded array. -/
def row1 (t : Fin cfg1.N) (p : Fin 2048) : Fin 100352 :=
  ⟨t.val * 2048 + p.val, by have ht : t.val < 49 := t.isLt.trans_eq points1; have := p.isLt; omega⟩

/-- The printed block-index maps, decided over the 49 points: the two row-blocked inputs move with the output, whose
    block index is the point itself; the weights and the bias stay at block `(0, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the mean, entry `(p, k)`: the array's entry `(2048 t + p, k)`. -/
theorem mean_block1 (V : (c : Dev nD) → (b : Ref sig .tc) → Buf (Elt Ideal) ((c : Thread nD τ).loc b)) (c : Dev nD)
    (t : Fin cfg1.N) (p : Fin 2048) (k : Fin 128) :
    iblk1 (F := Ideal) V c 0 t (ix2 p k) = V c main_v32 (ix2 (row1 t p) k) := by
  obtain ⟨e0, e1, -⟩ := blockIndex1 t
  show V c main_v32 (((cfg1.win 0).blk t).view.emb (ix2 p k)) = V c main_v32 (ix2 (row1 t p) k)
  refine congrArg _ (funext fun a => Fin.ext ?_)
  match a with
  | ⟨0, _⟩ => show win1_0.index t (0 : Fin 2) * 2048 + 1 * p.val = t.val * 2048 + p.val; omega
  | ⟨1, _⟩ => show win1_0.index t (1 : Fin 2) * 128 + 1 * k.val = k.val; omega

/-- Block `t` of the features, entry `(p, k)`: the array's entry `(2048 t + p, k)`. -/
theorem feat_block1 (V : (c : Dev nD) → (b : Ref sig .tc) → Buf (Elt Ideal) ((c : Thread nD τ).loc b)) (c : Dev nD)
    (t : Fin cfg1.N) (p : Fin 2048) (k : Fin 128) :
    iblk1 (F := Ideal) V c 1 t (ix2 p k) = V c main_v33 (ix2 (row1 t p) k) := by
  obtain ⟨-, -, e0, e1, -⟩ := blockIndex1 t
  show V c main_v33 (((cfg1.win 1).blk t).view.emb (ix2 p k)) = V c main_v33 (ix2 (row1 t p) k)
  refine congrArg _ (funext fun a => Fin.ext ?_)
  match a with
  | ⟨0, _⟩ => show win1_1.index t (0 : Fin 2) * 2048 + 1 * p.val = t.val * 2048 + p.val; omega
  | ⟨1, _⟩ => show win1_1.index t (1 : Fin 2) * 128 + 1 * k.val = k.val; omega

/-- The left weights are one block: at every point its entry `(k, q)` is the array's. -/
theorem wl_block1 (V : (c : Dev nD) → (b : Ref sig .tc) → Buf (Elt Ideal) ((c : Thread nD τ).loc b)) (c : Dev nD)
    (t : Fin cfg1.N) (k q : Fin 128) :
    iblk1 (F := Ideal) V c 2 t (ix2 k q) = V c main_v34 (ix2 k q) := by
  obtain ⟨-, -, -, -, e0, e1, -⟩ := blockIndex1 t
  show V c main_v34 (((cfg1.win 2).blk t).view.emb (ix2 k q)) = V c main_v34 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias row is one block: at every point its entry `(0, q)` is the array's. -/
theorem bias_block1 (V : (c : Dev nD) → (b : Ref sig .tc) → Buf (Elt Ideal) ((c : Thread nD τ).loc b)) (c : Dev nD)
    (t : Fin cfg1.N) (q : Fin 128) :
    iblk1 (F := Ideal) V c 3 t (ix2 (0 : Fin 1) q) = V c main_v36 (ix2 (0 : Fin 1) q) := by
  obtain ⟨-, -, -, -, -, -, e0, e1, -⟩ := blockIndex1 t
  show V c main_v36 (((cfg1.win 3).blk t).view.emb (ix2 (0 : Fin 1) q)) = V c main_v36 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The right weights are one block: at every point its entry `(k, q)` is the array's. -/
theorem wr_block1 (V : (c : Dev nD) → (b : Ref sig .tc) → Buf (Elt Ideal) ((c : Thread nD τ).loc b)) (c : Dev nD)
    (t : Fin cfg1.N) (k q : Fin 128) :
    iblk1 (F := Ideal) V c 4 t (ix2 k q) = V c main_v35 (ix2 k q) := by
  obtain ⟨-, -, -, -, -, -, -, -, e0, e1, -⟩ := blockIndex1 t
  show V c main_v35 (((cfg1.win 4).blk t).view.emb (ix2 k q)) = V c main_v35 (ix2 k q)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- Entry `(p, q)` of the output's block `t` sits at `(2048 t + p, q)` of the output array. -/
theorem out_entry1 (t : Fin cfg1.N) (p : Fin 2048) (q : Fin 128) :
    ((cfg1.win 5).blk t).view.emb (ix2 p q) = ix2 (row1 t p) q := by
  obtain ⟨-, -, -, -, -, -, -, -, -, -, e0, e1⟩ := blockIndex1 t
  refine funext fun a => Fin.ext ?_
  match a with
  | ⟨0, _⟩ => show win1_5.index t (0 : Fin 2) * 2048 + 1 * p.val = t.val * 2048 + p.val; omega
  | ⟨1, _⟩ => show win1_5.index t (1 : Fin 2) * 128 + 1 * q.val = q.val; omega

/-- WHAT POINT `t` WRITES BACK is block `t` of the combine of the five arrays as the round finds them. -/
theorem flushed1_eq (V : (c : Dev nD) → (b : Ref sig .tc) → Buf (Elt Ideal) ((c : Thread nD τ).loc b)) (c : Dev nD)
    (t : Fin cfg1.N) :
    (dat1 (F := Ideal) V c).flushed 5 t
      = ((cfg1.win 5).blk t).view.read (Elt Ideal)
          (combine false (V c main_v32) (V c main_v33) (V c main_v34) (V c main_v36) (V c main_v35)) := by
  show (cfg1.win 5).cut (grid1.coords t) ((dat1 (F := Ideal) V c).after 5 t) = _
  rw [after1_5]
  unfold out1_5
  rw [View.canon_unit_zero zeroOffsets]
  simp only [View.ld_unit_zero (S := S2048x128) zeroOffsets, View.ld_unit_zero (S := S128x128) zeroOffsets,
    View.ld_unit_zero (S := S1x128) zeroOffsets]
  funext j
  obtain ⟨p, q, rfl⟩ : ∃ (p : Fin 2048) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = combine false (V c main_v32) (V c main_v33) (V c main_v34) (V c main_v36) (V c main_v35)
        (((cfg1.win 5).blk t).view.emb (ix2 p q))
  rw [k1_pay1_apply, out_entry1, combine_false_apply]
  simp only [mean_block1, feat_block1, wl_block1, bias_block1, wr_block1]
  rfl

/-- An index of the output array is in point `t`'s block iff each coordinate is in the block's range on its axis. -/
theorem mem_outBlock1 (t : Fin cfg1.N) (i : S100352x128.Idx) :
    i ∈ ((cfg1.win 5).blk t).view.set ↔ ∀ a : Fin 2, win1_5.index t a * S2048x128.size a ≤ (i a).val ∧ (i a).val < win1_5.index t a * S2048x128.size a + S2048x128.size a := by
  show i ∈ ((View.whole main_v37).slice (win1_5.rect t)).set ↔ _
  rw [View.set_slice_whole, Rect.mem_set_unit]
  exact Iff.rfl

/-- Every entry `(r, j)` of the output array is in the block of point `r / 2048`. -/
theorem outBlocks_cover1 (i : S100352x128.Idx) :
    ∃ t : Fin cfg1.N, (cfg1.win 5).flush t = true ∧ i ∈ ((cfg1.win 5).blk t).view.set := by
  have hi0 : (i 0).val < 100352 := (i 0).isLt
  have hi1 : (i 1).val < 128 := (i 1).isLt
  obtain ⟨t, ht⟩ : ∃ t : Fin cfg1.N, t.val = (i 0).val / 2048 := ⟨⟨(i 0).val / 2048, by rw [points1]; omega⟩, rfl⟩
  obtain ⟨-, -, -, -, -, -, -, -, -, -, e0, e1⟩ := blockIndex1 t
  refine ⟨t, flush1_5 t, ?_⟩
  rw [mem_outBlock1]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 128 ≤ (i 1).val ∧ (i 1).val < win1_5.index t (1 : Fin 2) * 128 + 128; omega

/-- THE OUTPUT ARRAY after round two's 49 points: the combine of the five arrays as the round found them. -/
theorem region1_final (V : (c : Dev nD) → (b : Ref sig .tc) → Buf (Elt Ideal) ((c : Thread nD τ).loc b)) (c : Dev nD) :
    (dat1 (F := Ideal) V c).arrAt 5 cfg1.N
      = combine false (V c main_v32) (V c main_v33) (V c main_v34) (V c main_v36) (V c main_v35) :=
  (dat1 (F := Ideal) V c).arrAt_eq_of_cover 5 _ (fun t _ => flushed1_eq V c t) outBlocks_cover1

end Cert.Sage

end
-- ==== Proof.HostRead.lean ====
/-
  What the tiled program's result buffer holds after the run, as a function of the argument arrays: the two rounds of
  `Spec.lean`. The program is seventeen stretches of whole-array operations around two tiled regions; each stretch's
  results are read off as terms of the buffers it reads, the buffers a stretch leaves alone are carried across it, and each
  region's output array is the row-wise combine of its five input arrays.
-/
import proofs.«402807_j14465449853443_1_alg».proof.Proof.Spec
import proofs.«402807_j14465449853443_1_alg».proof.Proof.RegionValue
import proofs.«402807_j14465449853443_1_alg».proof.Proof.Gen.KernelIdeal.Frame
import Idealize.ShloMosaic.Lib.StableHlo.Run

noncomputable section

namespace Cert.Sage

open Idealize.ShloMosaic Idealize.ShloMosaic.TcCoe Idealize.SL.Sem
open Cert.KernelIdeal

section Defs
open Cert.KernelIdeal.Facts₀ Cert.KernelIdeal.Facts

/-- The mean with the reciprocal-degree column given. -/
def meanWith {F : FTy → Type} [FloatOps F] (msg : FVec F S1600000x128 .f32) (dst : IVec S1600000 32)
    (inv : FVec F S100000x1 .f32) : FVec F S100000x128 .f32 :=
  mulf (sumAt dst msg) (broadcastInDim S100000x128 ![0, 1] bcast_S100000x1_S100000x128_0_1 inv)

theorem meanIn_eq_meanWith {F : FTy → Type} [FloatOps F] (msg : FVec F S1600000x128 .f32) (dst : IVec S1600000 32) :
    meanIn msg dst = meanWith msg dst (invDegree dst) := rfl

/-- Rows appended below, with the padding value given as a 32-bit integer scalar. -/
def padWith {F : FTy → Type} [FloatOps F] (a : FVec F S100000x128 .f32) (z : IVec S_ 32) : FVec F S100352x128 .f32 :=
  pad S100352x128 ![0, 0] ![352, 0] ![0, 0] a (sitofp .f32 z) pads_S100000x128_S100352x128_03520_000 h_S_

theorem padRows_eq_padWith {F : FTy → Type} [FloatOps F] (a : FVec F S100000x128 .f32) : padRows a = padWith a (constantI S_ 32 0#32) := rfl

end Defs

open Cert.KernelIdeal.Gen

/-- Transport to a buffer's own type and back is the identity. -/
theorem ofBuf_toBuf {sig : RefSig} {Val : EltTy → Type} {T : BufTy} (x : StableHlo.TRef sig T) (v : T.Contents Val) :
    x.ofBuf (x.toBuf v) = v := by
  obtain ⟨r, h, h1, h2⟩ := x
  subst h
  rfl

/-- Transport along the identity. -/
theorem toBuf_id {sig : RefSig} {Val : EltTy → Type} (r : Ref sig .tc) (h2 : r.space ≠ .host) (h3 : r.isScoped = false)
    (v : r.ty.Contents Val) : (StableHlo.TRef.of (T := r.ty) r rfl h2 h3).toBuf v = v := rfl

/-! ## Each stretch, from any contents `W`, at any reading of the floats -/

section Stretches

variable {F : FTy → Type} [FloatOps F] (W : Valuation τ sig (Elt F))

theorem st0_v1 : StableHlo.after hostOps0 W (Proc.devRef .tc main_v1) = srcIdx (W (Proc.devRef .tc main_arg1)) := by
  after_results <;> rfl
theorem st0_v3 : StableHlo.after hostOps0 W (Proc.devRef .tc main_v3) = dstIdx (W (Proc.devRef .tc main_arg1)) := by
  after_results <;> rfl
theorem st0_v12 : StableHlo.after hostOps0 W (Proc.devRef .tc main_v12) = invDegree (dstIdx (W (Proc.devRef .tc main_arg1))) := by
  after_results <;> rfl
set_option maxHeartbeats 8000000 in
theorem st01_v13 : StableHlo.after hostOps0_1 W (Proc.devRef .tc main_v13) = rowsOrFill (W (Proc.devRef .tc main_arg0)) (W (Proc.devRef .tc main_v1)) := by
  after_results
  simp only [ofBuf_toBuf]
  refine (toBuf_id main_v13 (by decide) rfl _).trans ?_
  rfl
theorem st02_v18 : StableHlo.after hostOps0_2 W (Proc.devRef .tc main_v18)
    = meanWith (W (Proc.devRef .tc main_v13)) (W (Proc.devRef .tc main_v3)) (W (Proc.devRef .tc main_v12)) := by
  after_results <;> rfl
theorem st02_c : StableHlo.after hostOps0_2 W (Proc.devRef .tc main_c) = constantI S_ 32 0#32 := by
  after_results <;> rfl
theorem st03_v19 : StableHlo.after hostOps0_3 W (Proc.devRef .tc main_v19) = padWith (W (Proc.devRef .tc main_v18)) (W (Proc.devRef .tc main_c)) := by
  after_results <;> rfl
theorem st04_c4 : StableHlo.after hostOps0_4 W (Proc.devRef .tc main_c_4) = constantI S_ 32 0#32 := by
  after_results <;> rfl
theorem st05_v20 : StableHlo.after hostOps0_5 W (Proc.devRef .tc main_v20) = padWith (W (Proc.devRef .tc main_arg0)) (W (Proc.devRef .tc main_c_4)) := by
  after_results <;> rfl
theorem st06_v21 : StableHlo.after hostOps0_6 W (Proc.devRef .tc main_v21) = tr (W (Proc.devRef .tc main_arg2)) := by
  after_results <;> rfl
theorem st06_v22 : StableHlo.after hostOps0_6 W (Proc.devRef .tc main_v22) = tr (W (Proc.devRef .tc main_arg4)) := by
  after_results <;> rfl
theorem st06_v23 : StableHlo.after hostOps0_6 W (Proc.devRef .tc main_v23) = asRow (W (Proc.devRef .tc main_arg3)) := by
  after_results <;> rfl
theorem st1_v25 : StableHlo.after hostOps1 W (Proc.devRef .tc main_v25) = topRows (W (Proc.devRef .tc main_v24)) := by
  after_results <;> rfl
set_option maxHeartbeats 8000000 in
theorem st11_v26 : StableHlo.after hostOps1_1 W (Proc.devRef .tc main_v26) = rowsOrFill (W (Proc.devRef .tc main_v25)) (W (Proc.devRef .tc main_v1)) := by
  after_results
  simp only [ofBuf_toBuf]
  refine (toBuf_id main_v26 (by decide) rfl _).trans ?_
  rfl
theorem st12_v31 : StableHlo.after hostOps1_2 W (Proc.devRef .tc main_v31)
    = meanWith (W (Proc.devRef .tc main_v26)) (W (Proc.devRef .tc main_v3)) (W (Proc.devRef .tc main_v12)) := by
  after_results <;> rfl
theorem st12_c6 : StableHlo.after hostOps1_2 W (Proc.devRef .tc main_c_6) = constantI S_ 32 0#32 := by
  after_results <;> rfl
theorem st13_v32 : StableHlo.after hostOps1_3 W (Proc.devRef .tc main_v32) = padWith (W (Proc.devRef .tc main_v31)) (W (Proc.devRef .tc main_c_6)) := by
  after_results <;> rfl
theorem st14_c7 : StableHlo.after hostOps1_4 W (Proc.devRef .tc main_c_7) = constantI S_ 32 0#32 := by
  after_results <;> rfl
theorem st15_v33 : StableHlo.after hostOps1_5 W (Proc.devRef .tc main_v33) = padWith (W (Proc.devRef .tc main_v25)) (W (Proc.devRef .tc main_c_7)) := by
  after_results <;> rfl
theorem st16_v34 : StableHlo.after hostOps1_6 W (Proc.devRef .tc main_v34) = tr (W (Proc.devRef .tc main_arg5)) := by
  after_results <;> rfl
theorem st16_v35 : StableHlo.after hostOps1_6 W (Proc.devRef .tc main_v35) = tr (W (Proc.devRef .tc main_arg7)) := by
  after_results <;> rfl
theorem st16_v36 : StableHlo.after hostOps1_6 W (Proc.devRef .tc main_v36) = asRow (W (Proc.devRef .tc main_arg6)) := by
  after_results <;> rfl
theorem st2_v38 : StableHlo.after hostOps2 W (Proc.devRef .tc main_v38) = topRows (W (Proc.devRef .tc main_v37)) := by
  after_results <;> rfl

end Stretches

/-! ## The run: each boundary's contents, read back to the argument arrays -/

section Run

variable (m : (ℓ : Loc nD τ sig) → Buf (Elt Ideal) ℓ) (ρ : Dev nD → PrngReg) (c : Dev nD)

/-- One boundary back, for a buffer that the stretch (or the region) in between does not write. -/
macro "step_back" : tactic => `(tactic| first
  | with_reducible rfl
  | refine (StableHlo.after_of_forall_not_mem _ _ (List.forall_iff_forall_mem.mp (by
      simp only [hostOps0, hostOps0_1, hostOps0_2, hostOps0_3, hostOps0_4, hostOps0_5, hostOps0_6, hostOps1, hostOps1_1,
        hostOps1_2, hostOps1_3, hostOps1_4, hostOps1_5, hostOps1_6, hostOps2, List.Forall, StableHlo.nullary_writes,
        StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans ?_
  | refine (W8_of_ne _ _ _ _ (by decide)).trans ?_
  | refine (W16_of_ne _ _ _ _ (by decide)).trans ?_)

/-! ### Buffers carried across stretches that do not write them -/

theorem k_arg0_W1 : W1 (F := Ideal) m ρ c (Proc.devRef .tc main_arg0) = (m ((c : Thread nD τ).loc main_arg0)) := by repeat step_back
theorem k_arg0_W5 : W5 (F := Ideal) m ρ c (Proc.devRef .tc main_arg0) = (m ((c : Thread nD τ).loc main_arg0)) := by repeat step_back
theorem k_arg2_W6 : W6 (F := Ideal) m ρ c (Proc.devRef .tc main_arg2) = (m ((c : Thread nD τ).loc main_arg2)) := by repeat step_back
theorem k_arg3_W6 : W6 (F := Ideal) m ρ c (Proc.devRef .tc main_arg3) = (m ((c : Thread nD τ).loc main_arg3)) := by repeat step_back
theorem k_arg4_W6 : W6 (F := Ideal) m ρ c (Proc.devRef .tc main_arg4) = (m ((c : Thread nD τ).loc main_arg4)) := by repeat step_back
theorem k_arg5_W14 : W14 (F := Ideal) m ρ c (Proc.devRef .tc main_arg5) = (m ((c : Thread nD τ).loc main_arg5)) := by repeat step_back
theorem k_arg6_W14 : W14 (F := Ideal) m ρ c (Proc.devRef .tc main_arg6) = (m ((c : Thread nD τ).loc main_arg6)) := by repeat step_back
theorem k_arg7_W14 : W14 (F := Ideal) m ρ c (Proc.devRef .tc main_arg7) = (m ((c : Thread nD τ).loc main_arg7)) := by repeat step_back
theorem k_v1_W9 : W9 (F := Ideal) m ρ c (Proc.devRef .tc main_v1) = W1 m ρ c (Proc.devRef .tc main_v1) := by repeat step_back
theorem k_v3_W2 : W2 (F := Ideal) m ρ c (Proc.devRef .tc main_v3) = W1 m ρ c (Proc.devRef .tc main_v3) := by repeat step_back
theorem k_v3_W10 : W10 (F := Ideal) m ρ c (Proc.devRef .tc main_v3) = W1 m ρ c (Proc.devRef .tc main_v3) := by repeat step_back
theorem k_v12_W2 : W2 (F := Ideal) m ρ c (Proc.devRef .tc main_v12) = W1 m ρ c (Proc.devRef .tc main_v12) := by repeat step_back
theorem k_v12_W10 : W10 (F := Ideal) m ρ c (Proc.devRef .tc main_v12) = W1 m ρ c (Proc.devRef .tc main_v12) := by repeat step_back
theorem k_v19_W7 : W7 (F := Ideal) m ρ c (Proc.devRef .tc main_v19) = W4 m ρ c (Proc.devRef .tc main_v19) := by repeat step_back
theorem k_v20_W7 : W7 (F := Ideal) m ρ c (Proc.devRef .tc main_v20) = W6 m ρ c (Proc.devRef .tc main_v20) := by repeat step_back
theorem k_v25_W13 : W13 (F := Ideal) m ρ c (Proc.devRef .tc main_v25) = W9 m ρ c (Proc.devRef .tc main_v25) := by repeat step_back
theorem k_v32_W15 : W15 (F := Ideal) m ρ c (Proc.devRef .tc main_v32) = W12 m ρ c (Proc.devRef .tc main_v32) := by repeat step_back
theorem k_v33_W15 : W15 (F := Ideal) m ρ c (Proc.devRef .tc main_v33) = W14 m ρ c (Proc.devRef .tc main_v33) := by repeat step_back

/-! ### The first round -/

/-- The source and destination node of each edge, and the first round's mean and result. -/
abbrev src₀ : IVec S1600000 32 := srcIdx (m ((c : Thread nD τ).loc main_arg1))
abbrev dst₀ : IVec S1600000 32 := dstIdx (m ((c : Thread nD τ).loc main_arg1))
abbrev mean₁ : FVec Ideal S100000x128 .f32 := meanIn (rowsOrFill (F := Ideal) (m ((c : Thread nD τ).loc main_arg0)) (src₀ m c)) (dst₀ m c)
abbrev hid₁ : FVec Ideal S100000x128 .f32 :=
  topRows (combine true (padRows (mean₁ m c)) (padRows (F := Ideal) (m ((c : Thread nD τ).loc main_arg0))) (tr (F := Ideal) (m ((c : Thread nD τ).loc main_arg2))) (asRow (F := Ideal) (m ((c : Thread nD τ).loc main_arg3))) (tr (F := Ideal) (m ((c : Thread nD τ).loc main_arg4))))
abbrev mean₂ : FVec Ideal S100000x128 .f32 := meanIn (rowsOrFill (hid₁ m c) (src₀ m c)) (dst₀ m c)

theorem b1_v1 : W1 (F := Ideal) m ρ c (Proc.devRef .tc main_v1) = src₀ m c := st0_v1 (W0 m ρ c)
theorem b1_v3 : W1 (F := Ideal) m ρ c (Proc.devRef .tc main_v3) = dst₀ m c := st0_v3 (W0 m ρ c)
theorem b1_v12 : W1 (F := Ideal) m ρ c (Proc.devRef .tc main_v12) = invDegree (F := Ideal) (dst₀ m c) := st0_v12 (W0 m ρ c)

theorem b2_v13 : W2 (F := Ideal) m ρ c (Proc.devRef .tc main_v13) = rowsOrFill (F := Ideal) (m ((c : Thread nD τ).loc main_arg0)) (src₀ m c) :=
  (st01_v13 (W1 m ρ c)).trans (by rw [k_arg0_W1, b1_v1])

theorem b3_v18 : W3 (F := Ideal) m ρ c (Proc.devRef .tc main_v18) = mean₁ m c :=
  (st02_v18 (W2 m ρ c)).trans (by rw [b2_v13, k_v3_W2, b1_v3, k_v12_W2, b1_v12]; rfl)

theorem b3_c : W3 (F := Ideal) m ρ c (Proc.devRef .tc main_c) = constantI S_ 32 0#32 := st02_c (W2 m ρ c)

theorem b4_v19 : W4 (F := Ideal) m ρ c (Proc.devRef .tc main_v19) = padRows (mean₁ m c) :=
  (st03_v19 (W3 m ρ c)).trans (by rw [b3_v18, b3_c]; rfl)

theorem b5_c4 : W5 (F := Ideal) m ρ c (Proc.devRef .tc main_c_4) = constantI S_ 32 0#32 := st04_c4 (W4 m ρ c)

theorem b6_v20 : W6 (F := Ideal) m ρ c (Proc.devRef .tc main_v20) = padRows (F := Ideal) (m ((c : Thread nD τ).loc main_arg0)) :=
  (st05_v20 (W5 m ρ c)).trans (by rw [k_arg0_W5, b5_c4]; rfl)

theorem b7_v21 : W7 (F := Ideal) m ρ c (Proc.devRef .tc main_v21) = tr (F := Ideal) (m ((c : Thread nD τ).loc main_arg2)) := (st06_v21 (W6 m ρ c)).trans (by rw [k_arg2_W6])
theorem b7_v22 : W7 (F := Ideal) m ρ c (Proc.devRef .tc main_v22) = tr (F := Ideal) (m ((c : Thread nD τ).loc main_arg4)) := (st06_v22 (W6 m ρ c)).trans (by rw [k_arg4_W6])
theorem b7_v23 : W7 (F := Ideal) m ρ c (Proc.devRef .tc main_v23) = asRow (F := Ideal) (m ((c : Thread nD τ).loc main_arg3)) := (st06_v23 (W6 m ρ c)).trans (by rw [k_arg3_W6])

/-- The first region leaves the clamped combine of the padded mean and the padded features. -/
theorem b8_v24 : W8 (F := Ideal) m ρ c (Proc.devRef .tc main_v24)
    = combine true (padRows (mean₁ m c)) (padRows (F := Ideal) (m ((c : Thread nD τ).loc main_arg0))) (tr (F := Ideal) (m ((c : Thread nD τ).loc main_arg2))) (asRow (F := Ideal) (m ((c : Thread nD τ).loc main_arg3))) (tr (F := Ideal) (m ((c : Thread nD τ).loc main_arg4))) := by
  have h := region0_final (V7 (F := Ideal) m ρ) c
  dsimp only [V7] at h
  rw [k_v19_W7, b4_v19, k_v20_W7, b6_v20, b7_v21, b7_v23, b7_v22] at h
  exact (W8_arr m ρ c 5).trans h

theorem b9_v25 : W9 (F := Ideal) m ρ c (Proc.devRef .tc main_v25) = hid₁ m c := (st1_v25 (W8 m ρ c)).trans (by rw [b8_v24])

/-! ### The second round -/

theorem b10_v26 : W10 (F := Ideal) m ρ c (Proc.devRef .tc main_v26) = rowsOrFill (hid₁ m c) (src₀ m c) :=
  (st11_v26 (W9 m ρ c)).trans (by rw [b9_v25, k_v1_W9, b1_v1])

theorem b11_v31 : W11 (F := Ideal) m ρ c (Proc.devRef .tc main_v31) = mean₂ m c :=
  (st12_v31 (W10 m ρ c)).trans (by rw [b10_v26, k_v3_W10, b1_v3, k_v12_W10, b1_v12]; rfl)

theorem b11_c6 : W11 (F := Ideal) m ρ c (Proc.devRef .tc main_c_6) = constantI S_ 32 0#32 := st12_c6 (W10 m ρ c)

theorem b12_v32 : W12 (F := Ideal) m ρ c (Proc.devRef .tc main_v32) = padRows (mean₂ m c) :=
  (st13_v32 (W11 m ρ c)).trans (by rw [b11_v31, b11_c6]; rfl)

theorem b13_c7 : W13 (F := Ideal) m ρ c (Proc.devRef .tc main_c_7) = constantI S_ 32 0#32 := st14_c7 (W12 m ρ c)

theorem b14_v33 : W14 (F := Ideal) m ρ c (Proc.devRef .tc main_v33) = padRows (hid₁ m c) :=
  (st15_v33 (W13 m ρ c)).trans (by rw [k_v25_W13, b9_v25, b13_c7]; rfl)

theorem b15_v34 : W15 (F := Ideal) m ρ c (Proc.devRef .tc main_v34) = tr (F := Ideal) (m ((c : Thread nD τ).loc main_arg5)) := (st16_v34 (W14 m ρ c)).trans (by rw [k_arg5_W14])
theorem b15_v35 : W15 (F := Ideal) m ρ c (Proc.devRef .tc main_v35) = tr (F := Ideal) (m ((c : Thread nD τ).loc main_arg7)) := (st16_v35 (W14 m ρ c)).trans (by rw [k_arg7_W14])
theorem b15_v36 : W15 (F := Ideal) m ρ c (Proc.devRef .tc main_v36) = asRow (F := Ideal) (m ((c : Thread nD τ).loc main_arg6)) := (st16_v36 (W14 m ρ c)).trans (by rw [k_arg6_W14])

/-- The second region leaves the combine of the padded second mean and the padded first-round result. -/
theorem b16_v37 : W16 (F := Ideal) m ρ c (Proc.devRef .tc main_v37)
    = combine false (padRows (mean₂ m c)) (padRows (hid₁ m c)) (tr (F := Ideal) (m ((c : Thread nD τ).loc main_arg5))) (asRow (F := Ideal) (m ((c : Thread nD τ).loc main_arg6))) (tr (F := Ideal) (m ((c : Thread nD τ).loc main_arg7))) := by
  have h := region1_final (V15 (F := Ideal) m ρ) c
  dsimp only [V15] at h
  rw [k_v32_W15, b12_v32, k_v33_W15, b14_v33, b15_v34, b15_v36, b15_v35] at h
  exact (W16_arr m ρ c 5).trans h

/-- After the run the result buffer holds the two rounds of the argument arrays. -/
theorem result_eq : W17 (F := Ideal) m ρ c (Proc.devRef .tc main_v38)
    = twoRounds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (st2_v38 (W16 m ρ c)).trans (by rw [b16_v37]; rfl)

end Run

end Cert.Sage

end
-- ==== Proof.RefSide.lean ====
/-
  The plain-array program, read as two rounds. One round, for node features `feat` and the mean `mean` of the
  incoming rows: `(mean · Wlᵀ + bl) + feat · Wrᵀ`, clamped below at zero in the first round; the mean is the
  per-destination sum of the gathered rows divided by `max (number of incoming edges) 1`. The run's result term is
  exactly the second round over the first.
-/
import proofs.«402807_j14465449853443_1_alg».proof.Proof.Gen.ReferenceIdeal.Run
import Idealize.ShloMosaic.PureOps.Ideal

noncomputable section

namespace Cert.Sage.Ref

open Idealize.ShloMosaic Idealize.ShloMosaic.TcCoe Idealize.SL.Sem
open Cert.ReferenceIdeal
open Cert.ReferenceIdeal.Facts₀ Cert.ReferenceIdeal.Facts

/-- Row 0 of the edge list: the source node of each edge. -/
def srcIdx (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of each edge. -/
def dstIdx (ei : IVec S2x1600000 32) : IVec S1600000 32 :=
  shapeCast S1600000 (extractStridedSlice S1x1600000 ![1, 0] ei slices_S2x1600000_S1x1600000_1_0) shapeCasts_S1x1600000_S1600000

/-- A vector of node numbers as a one-column index table. -/
def asColumn (v : IVec S1600000 32) : IVec S1600000x1 32 :=
  broadcastInDim S1600000x1 ![0] bcast_S1600000_S1600000x1_0 v

/-- Negative node numbers count from the end. -/
def wrapNeg (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The rows `feat (src e)`, one per edge. -/
def rowsOf (feat : FVec Ideal S100000x128 .f32) (src : IVec S1600000 32) : FVec Ideal S1600000x128 .f32 :=
  Host.gather gather_S100000x128_S1600000x1_S1600000x128_1_0_n_n_0_1_1128 feat (asColumn (wrapNeg src))

/-- The number of edges into each node, at least one. -/
def degree (dst : IVec S1600000 32) : FVec Ideal S100000 .f32 :=
  maximumf
    (Host.scatterAdd scatter_S100000_S1600000x1_S1600000_n_0_0_1
      (broadcastInDim S100000 ![] bcast_S_S100000 (constant S_ .f32 0x00000000#32)) (asColumn dst)
      (broadcastInDim S1600000 ![] bcast_S_S1600000 (constant S_ .f32 0x3F800000#32)))
    (broadcastInDim S100000 ![] bcast_S_S100000 (constant S_ .f32 0x3F800000#32))

/-- The mean of the incoming rows: their per-destination sum divided by the degree. -/
def meanIn (msg : FVec Ideal S1600000x128 .f32) (dst : IVec S1600000 32) : FVec Ideal S100000x128 .f32 :=
  Host.divf
    (Host.scatterAdd scatter_S100000x128_S1600000x1_S1600000x128_1_0_0_1
      (broadcastInDim S100000x128 ![] bcast_S_S100000x128 (constant S_ .f32 0x00000000#32)) (asColumn dst) msg)
    (broadcastInDim S100000x128 ![0, 1] bcast_S100000x1_S100000x128_0_1
      (broadcastInDim S100000x1 ![0] bcast_S100000_S100000x1_0 (degree dst)))

/-- `(mean · Wlᵀ + bl) + feat · Wrᵀ`. -/
def affine (mean feat : FVec Ideal S100000x128 .f32) (Wl : FVec Ideal S128x128 .f32) (bl : FVec Ideal S128 .f32)
    (Wr : FVec Ideal S128x128 .f32) : FVec Ideal S100000x128 .f32 :=
  addf
    (addf
      (Host.dotGeneral dot_S100000x128_S128x128_S100000x128_1_0_0_1_n_n none mean
        (transpose S128x128 [1, 0] Wl transposes_S128x128_S128x128_1_0))
      (broadcastInDim S100000x128 ![0, 1] bcast_S1x128_S100000x128_0_1 (broadcastInDim S1x128 ![1] bcast_S128_S1x128_1 bl)))
    (Host.dotGeneral dot_S100000x128_S128x128_S100000x128_1_0_0_1_n_n none feat
      (transpose S128x128 [1, 0] Wr transposes_S128x128_S128x128_1_0))

/-- One round's combine, clamped below at zero when `clamp` is set. -/
def round (clamp : Bool) (mean feat : FVec Ideal S100000x128 .f32) (Wl : FVec Ideal S128x128 .f32) (bl : FVec Ideal S128 .f32)
    (Wr : FVec Ideal S128x128 .f32) : FVec Ideal S100000x128 .f32 :=
  if clamp then
    maximumf (affine mean feat Wl bl Wr) (broadcastInDim S100000x128 ![] bcast_S_S100000x128 (constant S_ .f32 0x00000000#32))
  else affine mean feat Wl bl Wr

/-- Both rounds. -/
def twoRounds (x : FVec Ideal S100000x128 .f32) (ei : IVec S2x1600000 32)
    (W1l : FVec Ideal S128x128 .f32) (b1l : FVec Ideal S128 .f32) (W1r : FVec Ideal S128x128 .f32)
    (W2l : FVec Ideal S128x128 .f32) (b2l : FVec Ideal S128 .f32) (W2r : FVec Ideal S128x128 .f32) : FVec Ideal S100000x128 .f32 :=
  round false
    (meanIn (rowsOf (round true (meanIn (rowsOf x (srcIdx ei)) (dstIdx ei)) x W1l b1l W1r) (srcIdx ei)) (dstIdx ei))
    (round true (meanIn (rowsOf x (srcIdx ei)) (dstIdx ei)) x W1l b1l W1r) W2l b2l W2r

/-- The run's result term is the two rounds of the argument arrays. -/
theorem res_eq (m : (ℓ : Loc nD τ sig) → Buf (Elt Ideal) ℓ) (c : Dev nD) :
    Cert.ReferenceIdeal.Value.res_main_v58 (F := Ideal) m c
      = twoRounds (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v58
  rfl

end Cert.Sage.Ref

end
-- ==== Proof.SourceRange.lean ====
import proofs.«402807_j14465449853443_1_alg».proof.Proof.Spec
import proofs.«402807_j14465449853443_1_alg».proof.Pre_finite_inputs
import proofs.«402807_j14465449853443_1_alg».proof.Proof.Gen.Pre_finite_inputs
import Idealize.ShloMosaic.Lib.ReduceAll
import Idealize.ShloMosaic.Lib.StableHlo.Predicate

noncomputable section

namespace Cert.Sage

open Idealize.ShloMosaic Idealize.ShloMosaic.ValueIdx
open Cert.KernelIdeal

/-! ## Signed word comparisons, read as inequalities of the signed values -/

private theorem sge_eq_one_iff (a b : BitVec 32) : IntOp.cmpi .sge a b = 1#1 ↔ b.toInt ≤ a.toInt := by
  simp only [IntOp.cmpi, BitVec.sle, StableHlo.Predicate.ofBool_eq_one_iff, decide_eq_true_eq]

private theorem sle_eq_one_iff (a b : BitVec 32) : IntOp.cmpi .sle a b = 1#1 ↔ a.toInt ≤ b.toInt := by
  simp only [IntOp.cmpi, BitVec.sle, StableHlo.Predicate.ofBool_eq_one_iff, decide_eq_true_eq]

private theorem slt_eq_one_iff (a b : BitVec 32) : IntOp.cmpi .slt a b = 1#1 ↔ a.toInt < b.toInt := by
  simp only [IntOp.cmpi, BitVec.slt, StableHlo.Predicate.ofBool_eq_one_iff, decide_eq_true_eq]

/-! ## The precondition's last conjunct: every source node lies in `[-100000, 100000)` -/

theorem srcOk_of_pre (x : FVec Ideal S100000x128 .f32) (ei : IVec S2x1600000 32)
    (W1l : FVec Ideal S128x128 .f32) (b1l : FVec Ideal S128 .f32) (W1r : FVec Ideal S128x128 .f32)
    (W2l : FVec Ideal S128x128 .f32) (b2l : FVec Ideal S128 .f32) (W2r : FVec Ideal S128x128 .f32)
    (h : Cert.Pre_finite_inputs.fn (F := Ideal) x ei W1l b1l W1r W2l b2l W2r = fun _ => 1#1) :
    ∀ e : S1600000.Idx, SrcOk (srcIdx ei e) := by
  intro e
  have h0 := congrFun h ValueIdx.ix0
  dsimp only [Cert.Pre_finite_inputs.fn, Cert.Pre_finite_inputs.fn_part1, Cert.Pre_finite_inputs.fn_part2] at h0
  -- the whole test is a conjunction whose last member is the range test reduced over all edges
  have h1 := (IntOp.andi_eq_one.1 h0).2
  haveI : Subsingleton Cert.Pre_finite_inputs.S_.Idx := ⟨fun a b => funext fun d => d.elim0⟩
  -- an and-reduction that came out one met a one at every edge
  have h2 := Host.reduce_andi_all _ _ _ _ _ h1 e
  obtain ⟨h3, h4⟩ := IntOp.andi_eq_one.1 h2
  have h5 : (4294867296#32 : BitVec 32).toInt ≤ (srcIdx ei e).toInt := (sge_eq_one_iff _ _).1 h3
  have h6 : (srcIdx ei e).toInt < (100000#32 : BitVec 32).toInt := (slt_eq_one_iff _ _).1 h4
  have c1 : (4294867296#32 : BitVec 32).toInt = -100000 := by decide
  have c2 : (100000#32 : BitVec 32).toInt = 100000 := by decide
  rw [c1] at h5
  rw [c2] at h6
  exact ⟨h5, h6⟩

/-! ## Wrapping a node number in that range lands inside the table -/

/-- The wrapped node number: a negative one has 100000 added. -/
def wrapWord (v : BitVec 32) : BitVec 32 :=
  Scalar.select (IntOp.cmpi .slt v 0#32) (IntOp.addi v 100000#32) v

/-- For `-100000 ≤ v < 100000` the sum `v + 100000` does not wrap around, so the wrapped number is in `[0, 99999]`. -/
theorem wrapWord_range (v : BitVec 32) (h : SrcOk v) : 0 ≤ (wrapWord v).toInt ∧ (wrapWord v).toInt ≤ 99999 := by
  obtain ⟨h1, h2⟩ := h
  unfold wrapWord Scalar.select IntOp.cmpi IntOp.addi
  by_cases hv : v.toInt < 0
  · have hs : v.slt 0#32 = true := by simp [BitVec.slt, hv]
    simp only [hs, BitVec.ofBool_true, if_true]
    rw [BitVec.toInt_add]
    have : (100000#32 : BitVec 32).toInt = 100000 := by decide
    rw [this, Int.bmod_eq_of_le_mul_two (by omega) (by omega)]
    omega
  · have hs : v.slt 0#32 = false := by simp [BitVec.slt, hv]
    simp [hs]
    omega

theorem wrapNeg_apply (src : IVec S1600000 32) (e : S1600000.Idx) : wrapNeg src e = wrapWord (src e) := rfl

/-- Every entry of the one-column table is an entry of the vector. -/
private theorem asColumn_apply (v : IVec S1600000 32) (i : S1600000x1.Idx) : ∃ e : S1600000.Idx, asColumn v i = v e := ⟨_, rfl⟩

/-! ## An and-reduction of ones, started from one, is one -/

private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

private theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-- Under the range hypothesis every edge's source node is found inside the table. -/
theorem inTable_one (src : IVec S1600000 32) (h : ∀ e : S1600000.Idx, SrcOk (src e)) (e : S1600000.Idx) :
    inTable src e = 1#1 := by
  unfold inTable
  refine reduce_andi_ones _ _ _ _ rfl (fun i => ?_) e
  obtain ⟨e', he'⟩ := asColumn_apply (wrapNeg src) i
  show IntOp.andi (IntOp.cmpi .sge (asColumn (wrapNeg src) i) 0#32) (IntOp.cmpi .sle (asColumn (wrapNeg src) i) 99999#32) = 1#1
  rw [he', wrapNeg_apply]
  obtain ⟨h1, h2⟩ := wrapWord_range _ (h e')
  have c0 : (0#32 : BitVec 32).toInt = 0 := by decide
  have c1 : (99999#32 : BitVec 32).toInt = 99999 := by decide
  exact IntOp.andi_eq_one.2 ⟨(sge_eq_one_iff _ _).2 (by rw [c0]; exact h1), (sle_eq_one_iff _ _).2 (by rw [c1]; exact h2)⟩

/-! ## The fill value is never used -/

theorem rowsOrFill_eq_rowsOf (feat : FVec Ideal S100000x128 .f32) (src : IVec S1600000 32)
    (h : ∀ e : S1600000.Idx, SrcOk (src e)) : rowsOrFill feat src = rowsOf feat src := by
  funext i
  unfold rowsOrFill
  rw [select_apply]
  have hm : broadcastInDim S1600000x128 ![0] Facts₀.bcast_S1600000_S1600000x128_0 (inTable src) i = 1#1 := inTable_one src h _
  rw [hm, select_one]

end Cert.Sage

end
-- ==== Proof.MeanValue.lean ====
import proofs.«402807_j14465449853443_1_alg».proof.Proof.Spec
import proofs.«402807_j14465449853443_1_alg».proof.Proof.RefSide
import Idealize.ShloMosaic.Lib.ValueLayout
import Idealize.ShloMosaic.Lib.Pipeline.Value
import Idealize.ShloMosaic.Lib.IdealHost

noncomputable section

namespace Cert.Sage

open Idealize.ShloMosaic Idealize.ShloMosaic.ValueIdx

theorem srcIdx_eq_ref (ei : IVec Cert.KernelIdeal.S2x1600000 32) : srcIdx ei = Ref.srcIdx ei := by
  rfl

theorem dstIdx_eq_ref (ei : IVec Cert.KernelIdeal.S2x1600000 32) : dstIdx ei = Ref.dstIdx ei := by
  rfl

theorem rowsOf_eq_ref (feat : FVec Ideal Cert.KernelIdeal.S100000x128 .f32) (src : IVec Cert.KernelIdeal.S1600000 32) :
    rowsOf feat src = Ref.rowsOf feat src := by
  rfl

/-! ## The mean: a product with the reciprocal degree is the quotient by the degree -/

open Cert.KernelIdeal in
/-- A vector laid along the rows of the rectangle, through a one-column table, reads at entry `(r, j)` the vector at `r`. -/
theorem spread_apply {α : Type} (h₁ : S100000.BroadcastsInDim S100000x1 ![0]) (h₂ : S100000x1.BroadcastsInDim S100000x128 ![0, 1])
    (y : S100000.Idx → α) (i : S100000x128.Idx) :
    broadcastInDim S100000x128 ![0, 1] h₂ (broadcastInDim S100000x1 ![0] h₁ y) i = y (ix1 (i 0)) := by
  unfold broadcastInDim
  refine congrArg y (funext fun a => ?_)
  have ha : a = 0 := Subsingleton.elim _ _
  subst ha
  rfl

open Cert.KernelIdeal in
/-- The degree is a maximum with one, so it is not zero. -/
theorem degree_ne_zero (dst : IVec S1600000 32) (k : S100000.Idx) : degree (F := Ideal) dst k ≠ 0 := by
  unfold degree
  rw [maximumf_apply,
    show broadcastInDim S100000 ![] Facts₀.bcast_S_S100000 (constant (F := Ideal) S_ .f32 0x3F800000#32) k
      = Ideal.ofBits .f32 0x3F800000#32 from rfl, Ideal.ofBits_one_f32]
  exact (lt_of_lt_of_le zero_lt_one (le_max_right _ _)).ne'

theorem meanIn_eq_ref (msg : FVec Ideal Cert.KernelIdeal.S1600000x128 .f32) (dst : IVec Cert.KernelIdeal.S1600000 32) :
    meanIn msg dst = Ref.meanIn msg dst := by
  funext i
  -- the tiled side: the sum at the entry times the reciprocal of the row's degree
  have hK : meanIn msg dst i = sumAt dst msg i * Ideal.div 1 (degree (F := Ideal) dst (ix1 (i 0))) := by
    unfold meanIn invDegree
    rw [mulf_apply, spread_apply, hostDivf_apply,
      show broadcastInDim Cert.KernelIdeal.S100000 ![] Cert.KernelIdeal.Facts₀.bcast_S_S100000
          (constant (F := Ideal) Cert.KernelIdeal.S_ .f32 0x3F800000#32) (ix1 (i 0))
        = Ideal.ofBits .f32 0x3F800000#32 from rfl, Ideal.ofBits_one_f32]
  -- the plain side: the same sum divided by the same degree
  have hR : Ref.meanIn msg dst i = Ideal.div (sumAt dst msg i) (degree (F := Ideal) dst (ix1 (i 0))) := by
    unfold Ref.meanIn
    rw [hostDivf_apply, spread_apply]
    rfl
  rw [hK, hR]
  exact Ideal.mul_one_div (degree_ne_zero dst _)

end Cert.Sage

end
-- ==== Proof.RoundValue.lean ====
import proofs.«402807_j14465449853443_1_alg».proof.Proof.Spec
import proofs.«402807_j14465449853443_1_alg».proof.Proof.RefSide
import proofs.«402807_j14465449853443_1_alg».proof.Proof.Gen.ReferenceIdeal.Read
import Idealize.ShloMosaic.Lib.KernelVsHost
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx

/-!
  One round, tiled over padded rows, against the same round on the plain arrays.

  At row `r < 100000` and column `j` the tiled round reads the padded arrays at a row of the original, so it is

      (∑ₖ mean (r, k) · Wlᵀ (k, j)  +  ∑ₖ feat (r, k) · Wrᵀ (k, j))  +  bl j,

  and the plain round is `(∑ₖ mean (r, k) · Wlᵀ (k, j) + bl j) + ∑ₖ feat (r, k) · Wrᵀ (k, j)`. The two differ by the
  order of a sum of three extended reals; the clamp, when present, is applied to both.
-/

namespace TiledRef

/-- The plain program's matrix product at entry `(r, j)`: the sum over `k` of `l (r, k) * w (k, j)`. -/
theorem hostDot_apply (l : FVec Ideal Cert.ReferenceIdeal.S100000x128 .f32) (w : FVec Ideal Cert.ReferenceIdeal.S128x128 .f32)
    (r : Fin 100000) (j : Fin 128) :
    Host.dotGeneral (F := Ideal) Cert.ReferenceIdeal.dot_S100000x128_S128x128_S100000x128_1_0_0_1_n_n none l w (ix2 r j)
      = ∑ k : Fin 128, l (ix2 r k) * w (ix2 k j) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r j) ((ValueIdx.contrEquiv1 Cert.ReferenceIdeal.dot_S100000x128_S128x128_S100000x128_1_0_0_1_n_n 128 rfl rfl).symm k) = ix2 r k := funext fun a => Fin.ext (by
    match a with
    | ⟨0, _⟩ => exact Cert.ReferenceIdeal.Read.lhs_main_v24_0 _ _
    | ⟨1, _⟩ => exact (Cert.ReferenceIdeal.Read.lhs_main_v24_1 _ _).trans hk)
  have er : Cert.ReferenceIdeal.dot_S100000x128_S128x128_S100000x128_1_0_0_1_n_n.rhsIdx (ix2 r j) ((ValueIdx.contrEquiv1 Cert.ReferenceIdeal.dot_S100000x128_S128x128_S100000x128_1_0_0_1_n_n 128 rfl rfl).symm k) = ix2 k j := funext fun a => Fin.ext (by
    match a with
    | ⟨0, _⟩ => exact (Cert.ReferenceIdeal.Read.rhs_main_v24_0 _ _).trans hk
    | ⟨1, _⟩ => exact Cert.ReferenceIdeal.Read.rhs_main_v24_1 _ _)
  rw [el, er]

/-- The bias vector spread over all rows, at entry `(r, j)`: the vector's entry `j`. -/
theorem biasAll_apply (bl : FVec Ideal Cert.ReferenceIdeal.S128 .f32)
    (h1 : Cert.ReferenceIdeal.S128.BroadcastsInDim Cert.ReferenceIdeal.S1x128 ![1])
    (h2 : Cert.ReferenceIdeal.S1x128.BroadcastsInDim Cert.ReferenceIdeal.S100000x128 ![0, 1])
    (r : Fin 100000) (j : Fin 128) :
    broadcastInDim Cert.ReferenceIdeal.S100000x128 ![0, 1] h2 (broadcastInDim Cert.ReferenceIdeal.S1x128 ![1] h1 bl) (ix2 r j)
      = bl (ix1 j) := by
  rw [broadcastInDim_apply _ h2 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact broadcastInDim_apply _ h1 bl (ix2 (0 : Fin 1) j) (ix1 j) (fun a => match a with
    | ⟨0, _⟩ => by show j.val = if (128 : Nat) = 1 then 0 else j.val; rw [if_neg (by decide)])

/-- The zero word spread over all entries, at any entry: the zero word's value. -/
theorem zeroAll_apply (h : Cert.ReferenceIdeal.S_.BroadcastsInDim Cert.ReferenceIdeal.S100000x128 ![])
    (i : Cert.ReferenceIdeal.S100000x128.Idx) :
    broadcastInDim Cert.ReferenceIdeal.S100000x128 ![] h (constant (F := Ideal) Cert.ReferenceIdeal.S_ .f32 0x00000000#32) i
      = Ideal.ofBits .f32 0x00000000#32 := by
  rw [broadcastInDim_apply _ h _ i ix0 (fun a => a.elim0), constant_apply]

/-- The first 100000 rows of a padded array, at `(r, j)`: the array at the same row and column. -/
theorem topRows_apply (o : FVec Ideal Cert.KernelIdeal.S100352x128 .f32) (r : Fin 100000) (j : Fin 128) (r' : Fin 100352)
    (hr : r'.val = r.val) : topRows o (ix2 r j) = o (ix2 r' j) := by
  unfold topRows
  exact slice2_axis0_apply 0 o _ r j r' (by omega)

/-- A padded array at a row of the original, `r' = r < 100000`: the original there. -/
theorem padRows_apply (a : FVec Ideal Cert.KernelIdeal.S100000x128 .f32) (r : Fin 100000) (r' : Fin 100352) (hr : r'.val = r.val)
    (k : Fin 128) : padRows a (ix2 r' k) = a (ix2 r k) := by
  unfold padRows
  exact pad_apply_of_inside ![0, 0] ![352, 0] ![0, 0] a _ _ _ (ix2 r' k) (ix2 r k) (fun ax => match ax with
    | ⟨0, _⟩ => by show r'.val = 0 + r.val * (0 + 1); omega
    | ⟨1, _⟩ => by show k.val = 0 + k.val * (0 + 1); omega)

/-- The bias vector as a one-row matrix, at `(0, j)`: the vector's entry `j`. -/
theorem asRow_apply (b : FVec Ideal Cert.KernelIdeal.S128 .f32) (j : Fin 128) : asRow b (ix2 (0 : Fin 1) j) = b (ix1 j) := by
  unfold asRow
  exact shapeCast_a_1a_apply b _ 0 j

/-- THE TWO ROUNDS AGREE BEFORE THE CLAMP: the tiled combine at a row of the original is the plain round's affine
    map there, the three summands taken in the other order. -/
theorem combineAt_eq_affine (mean feat : FVec Ideal Cert.KernelIdeal.S100000x128 .f32)
    (Wl : FVec Ideal Cert.KernelIdeal.S128x128 .f32) (bl : FVec Ideal Cert.KernelIdeal.S128 .f32)
    (Wr : FVec Ideal Cert.KernelIdeal.S128x128 .f32) (r : Fin 100000) (j : Fin 128) (r' : Fin 100352) (hr : r'.val = r.val) :
    combineAt (padRows mean) (padRows feat) (tr Wl) (asRow bl) (tr Wr) r' j = Ref.affine mean feat Wl bl Wr (ix2 r j) := by
  unfold combineAt Ref.affine tr
  rw [addf_apply, addf_apply, hostDot_apply, hostDot_apply, biasAll_apply, asRow_apply]
  simp only [padRows_apply mean r r' hr, padRows_apply feat r r' hr]
  exact add_right_comm _ _ _

end TiledRef

open TiledRef in
/-- One round computed on the padded arrays and cut back to the first 100000 rows is the plain round. -/
theorem tiled_eq_ref (clamp : Bool) (mean feat : FVec Ideal Cert.KernelIdeal.S100000x128 .f32)
    (Wl : FVec Ideal Cert.KernelIdeal.S128x128 .f32) (bl : FVec Ideal Cert.KernelIdeal.S128 .f32)
    (Wr : FVec Ideal Cert.KernelIdeal.S128x128 .f32) :
    topRows (combine clamp (padRows mean) (padRows feat) (tr Wl) (asRow bl) (tr Wr)) = Ref.round clamp mean feat Wl bl Wr := by
  funext i
  obtain ⟨r, j, rfl⟩ : ∃ (r : Fin 100000) (j : Fin 128), i = ix2 r j := ⟨i 0, i 1, eq_ix2 i⟩
  have hlt : r.val < 100352 := by have := r.isLt; omega
  rw [topRows_apply _ r j ⟨r.val, hlt⟩ rfl]
  cases clamp
  · show combineAt (padRows mean) (padRows feat) (tr Wl) (asRow bl) (tr Wr) ⟨r.val, hlt⟩ j = Ref.affine mean feat Wl bl Wr (ix2 r j)
    exact combineAt_eq_affine mean feat Wl bl Wr r j ⟨r.val, hlt⟩ rfl
  · show max (combineAt (padRows mean) (padRows feat) (tr Wl) (asRow bl) (tr Wr) ⟨r.val, hlt⟩ j) (Ideal.ofBits .f32 0x00000000#32)
      = maximumf (Ref.affine mean feat Wl bl Wr)
          (broadcastInDim Cert.ReferenceIdeal.S100000x128 ![] Cert.ReferenceIdeal.Facts₀.bcast_S_S100000x128
            (constant (F := Ideal) Cert.ReferenceIdeal.S_ .f32 0x00000000#32)) (ix2 r j)
    rw [maximumf_apply, zeroAll_apply, combineAt_eq_affine mean feat Wl bl Wr r j ⟨r.val, hlt⟩ rfl]

end Cert.Sage

end
-- ==== Proof.Bridge.lean ====
/-
  The two programs compute the same two rounds. Per round, with every source node inside `[-100000, 100000)`:
  gathering with a fill value on out-of-table rows is plain gathering (no row is out of the table); the sum times the
  reciprocal of the degree is the sum divided by the degree (the degree is at least one, so not zero); and the tiled
  combine of the padded arrays, cut back to the first 100000 rows, is `(mean · Wlᵀ + bl) + feat · Wrᵀ` entry by entry
  (addition on the extended reals is commutative and associative).
-/
import proofs.«402807_j14465449853443_1_alg».proof.Proof.Spec
import proofs.«402807_j14465449853443_1_alg».proof.Proof.RefSide
import proofs.«402807_j14465449853443_1_alg».proof.Proof.SourceRange
import proofs.«402807_j14465449853443_1_alg».proof.Proof.MeanValue
import proofs.«402807_j14465449853443_1_alg».proof.Proof.RoundValue

noncomputable section

namespace Cert.Sage

open Idealize.ShloMosaic
open Cert.KernelIdeal

/-- One round of the tiled program is one round of the plain-array program. -/
theorem roundTiled_eq_ref (clamp : Bool) (feat : FVec Ideal S100000x128 .f32) (src dst : IVec S1600000 32)
    (Wl : FVec Ideal S128x128 .f32) (bl : FVec Ideal S128 .f32) (Wr : FVec Ideal S128x128 .f32)
    (h : ∀ e : S1600000.Idx, SrcOk (src e)) :
    roundTiled clamp feat src dst Wl bl Wr = Ref.round clamp (Ref.meanIn (Ref.rowsOf feat src) dst) feat Wl bl Wr := by
  unfold roundTiled
  rw [tiled_eq_ref, rowsOrFill_eq_rowsOf feat src h, meanIn_eq_ref, rowsOf_eq_ref]

/-- Both rounds. -/
theorem twoRounds_eq_ref (x : FVec Ideal S100000x128 .f32) (ei : IVec S2x1600000 32)
    (W1l : FVec Ideal S128x128 .f32) (b1l : FVec Ideal S128 .f32) (W1r : FVec Ideal S128x128 .f32)
    (W2l : FVec Ideal S128x128 .f32) (b2l : FVec Ideal S128 .f32) (W2r : FVec Ideal S128x128 .f32)
    (h : ∀ e : S1600000.Idx, SrcOk (srcIdx ei e)) :
    twoRounds x ei W1l b1l W1r W2l b2l W2r = Ref.twoRounds x ei W1l b1l W1r W2l b2l W2r := by
  unfold twoRounds Ref.twoRounds
  rw [roundTiled_eq_ref true x (srcIdx ei) (dstIdx ei) W1l b1l W1r h,
    roundTiled_eq_ref false _ (srcIdx ei) (dstIdx ei) W2l b2l W2r h, srcIdx_eq_ref, dstIdx_eq_ref]

end Cert.Sage

end
-- ==== Proof.lean ====
/-
  A two-round graph network over 100000 nodes and 1600000 edges: each round takes the mean of the incoming neighbours'
  rows (a gather by source node, a sum by destination node, divided by the number of incoming edges, at least one) and
  combines it with the node's own row, `(mean · Wlᵀ + bl) + feat · Wrᵀ`; the first round is clamped below at zero.

  The tiled program pads the 100000 rows to 100352, computes the combine in 49 blocks of 2048 rows as
  `(mean · Wlᵀ + feat · Wrᵀ) + bl` (the casts to a narrower float format are the identity on the extended reals),
  drops the padding, multiplies by the reciprocal of the degree where the plain program divides, and fills the gathered
  row with a junk value when its source node lies outside the table. The two agree on the extended reals whenever every
  source node lies in `[-100000, 100000)` (a negative node number counts from the end in both programs): the fill is
  then never used; the degree is at least one, so `s · (1 / d) = s / d`; the padding rows never reach a kept row; and
  the two orders of the three summands agree because addition of extended reals is commutative and associative. The
  precondition's last conjunct states that range; the finiteness conjuncts are not used.

  The frames are the generated ones (the plain program's is its generated run with the result dropped); the tiled
  program's run with its result read is the launch theorem called once more with the result buffer in the post.
-/
import proofs.«402807_j14465449853443_1_alg».proof.Defs
import proofs.«402807_j14465449853443_1_alg».proof.Proof.Gen.Kernel
import proofs.«402807_j14465449853443_1_alg».proof.Proof.Gen.Kernel.Skeleton
import proofs.«402807_j14465449853443_1_alg».proof.Proof.Gen.Kernel.Launch
import proofs.«402807_j14465449853443_1_alg».proof.Proof.Gen.Kernel.Points
import proofs.«402807_j14465449853443_1_alg».proof.Proof.Gen.Kernel.Frame
import proofs.«402807_j14465449853443_1_alg».proof.Proof.Gen.KernelIdeal
import proofs.«402807_j14465449853443_1_alg».proof.Proof.Gen.KernelIdeal.Skeleton
import proofs.«402807_j14465449853443_1_alg».proof.Proof.Gen.KernelIdeal.Launch
import proofs.«402807_j14465449853443_1_alg».proof.Proof.Gen.KernelIdeal.Points
import proofs.«402807_j14465449853443_1_alg».proof.Proof.Gen.KernelIdeal.Frame
import proofs.«402807_j14465449853443_1_alg».proof.Proof.Gen.ReferenceIdeal
import proofs.«402807_j14465449853443_1_alg».proof.Proof.Gen.Pre_finite_inputs
import proofs.«402807_j14465449853443_1_alg».proof.Proof.Gen.ReferenceIdeal.Run
import proofs.«402807_j14465449853443_1_alg».proof.Proof.Gen.ReferenceIdeal.Read
import proofs.«402807_j14465449853443_1_alg».proof.Proof.KernelRun
import proofs.«402807_j14465449853443_1_alg».proof.Proof.HostRead
import proofs.«402807_j14465449853443_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the two rounds of the (agreeing) argument arrays in their result buffers. -/
theorem algebraic : Cert.algebraic_KernelIdeal_ReferenceIdeal := by
  intro m ρ m' ρ' hpre hagree
  refine ⟨fun c => Cert.Sage.twoRounds (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.result_eq m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.Sage.Ref.res_eq, e0, e1, e2, e3, e4, e5, e6, e7]
    exact (Cert.Sage.twoRounds_eq_ref _ _ _ _ _ _ _ _
      (Cert.Sage.srcOk_of_pre _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
